-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : IVec S4096x4096 32) (main_arg2 : FVec F S4096 .f32) (main_arg3 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S2048x4096, .bf16⟩
  | .hbm, ⟨14, _⟩ => ⟨S4096x4096, .bf16⟩
  | .hbm, ⟨15, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  gather_S4096_S4096x4096x1_S4096x4096_n_0_n_n_0_2_1_wf : GatherDims.WF S4096 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .bf16 = 32 ∨ (Rect.block (s := S2048x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S2048x4096, .f32⟩
  | .hbm, ⟨14, _⟩ => ⟨S1x4096, .f32⟩
  | .hbm, ⟨15, _⟩ => ⟨S2048x4096, .f32⟩
  | .hbm, ⟨16, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  gather_S4096_S4096x4096x1_S4096x4096_n_0_n_n_0_2_1_wf : GatherDims.WF S4096 S4096x4096x1 S4096x4096 [] [0] [] [0] [] 2 ![1]
  dot_S2048x4096_S4096x4096_S2048x4096_1_0_0_1_n_n_wf : DotDims.WF S2048x4096 S4096x4096 S2048x4096 [1] [0] [0] [1] [] []

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Pieces.lean ====
/-
  What each case of the body leaves behind, as values.

  The body has three cases by the position k of the grid point in its run of four.  At k = 0 it stores the zero block
  into the accumulator, reads it back and stores the accumulation over it; at k = 1, 2 it stores the accumulation over
  what the point before left; at k = 3 it does the same and then stores, into the output block, the epilogue of the bias
  block and the accumulator read back.  Each store covers its whole buffer from offset zero, so what a buffer ends
  holding is the last store's value, a load of a whole buffer is the buffer's contents, and a load after a covering
  store reads that store's value.
-/
import proofs.«176932_j59923383714208_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a <;> rfl

/-- First point of a run (k = 0): the accumulator ends at the accumulation over the zero block. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .bf16) (x2 : Vec F S1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S1024x1024) zero2]

/-- Middle points (k = 1, 2): the accumulator ends at the accumulation over what it held. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .bf16) (x2 : Vec F S1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero zero2]
  simp only [View.readAt_eq_ld, h7.read_unread, h3.read_unread, h4.read_unread, View.ld_unit_zero (S := S1024x1024) zero2]

/-- Last point (k = 3): the accumulator likewise, -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zero2]
  simp only [View.readAt_eq_ld, h7.read_unread, h3.read_unread, h4.read_unread, View.ld_unit_zero (S := S1024x1024) zero2]

/-- and the output block ends at the epilogue of the bias block and that accumulation. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1024 .f32) (xs0 : Vec F S1024x1024 .f32) :
    out0_C_3 c i a3 h3 a4 h4 a5 h5 a6 h6 a7 h7 hc0 hc1 x0 x1 x2 xs0 = k0_pay3 x2 (k0_pay2 xs0 x0 x1) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zero2]
  simp only [View.readCov_unit_zero (S := S1024x1024) _ zero2, View.readAt_eq_ld, h7.read_unread, h3.read_unread, h4.read_unread,
    h5.read_unread, View.ld_unit_zero (S := S1024x1024) zero2, View.ld_unit_zero (S := S1024) zero1]

end Cert.KernelIdeal.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Entry.lean ====
/-
  The body's three stored values, read at one entry over the extended reals.

  The reset stores the zero block.  The accumulation stores acc + a * b, where a * b is the matrix product of the two
  loaded 1024 x 1024 blocks into a zero accumulator: at (p, q) that is acc (p, q) + sum over kappa of a (p, kappa) * b (kappa, q).
  The epilogue stores acc + bias with the bias row broadcast down the rows: at (p, q) that is acc (p, q) + bias q.
  The casts between a shape and itself are the identity.
-/
import proofs.«176932_j59923383714208_1_alg».proof.Proof.Gen.KernelIdeal.Skeleton
import proofs.«176932_j59923383714208_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The kernel's matrix product contracts the left block's columns with the right block's rows and has no batch axes. -/
theorem dot_plain : PlainDot.IsPlain dot_S1024x1024_S1024x1024_S1024x1024_1_0_0_1_n_n :=
  ⟨rfl, rfl, rfl, rfl, rfl, rfl⟩

/-- The reset's value is zero at every entry. -/
theorem reset_apply (j : S1024x1024.Idx) : k0_pay1 (F := Ideal) j = 0 := by
  unfold k0_pay1
  rw [shapeCast_self]
  exact Ideal.ofBits_zero_f32

/-- The accumulation's value at (p, q): what the accumulator held there plus the block product's entry. -/
theorem accumulate_apply (acc : Vec Ideal S1024x1024 .f32) (a b : Vec Ideal S1024x1024 .bf16) (p q : Fin 1024) :
    k0_pay2 (F := Ideal) acc a b (ix2 p q) = acc (ix2 p q) + ∑ κ : Fin 1024, a (ix2 p κ) * b (ix2 κ q) := by
  unfold k0_pay2
  simp only [shapeCast_self]
  exact congrArg (acc (ix2 p q) + ·) (PlainDot.matmul_zero_plain _ dot_plain none a b p q)

/-- The epilogue's value at (p, q): the accumulator's entry plus the bias of column q. -/
theorem epilogue_apply (bias : Vec Ideal S1024 .f32) (acc : Vec Ideal S1024x1024 .f32) (p q : Fin 1024) :
    k0_pay3 (F := Ideal) bias acc (ix2 p q) = acc (ix2 p q) + bias (ix1 q) := by
  unfold k0_pay3
  simp only [shapeCast_self]
  refine congrArg (acc (ix2 p q) + ·) ?_
  rw [broadcastTo_1b_ab_apply, shapeCast_a_1a_apply]

end Cert.KernelIdeal.Entry

end
-- ==== Proof.Blocked.lean ====
/-
  A contraction cut into equal blocks.

  The product of a 2048 x 4096 matrix X with a 4096 x 4096 matrix W, plus a row vector of biases, has at (r, c) the value
  (sum over kappa < 4096 of X (r, kappa) * W (kappa, c)) + bias c.  Cut the contracted axis into four blocks of 1024:
  the sum is the sum over the four blocks of each block's partial product.  Addition of extended reals is commutative and
  associative, so this regrouping needs no finiteness of the entries.

  To keep the arithmetic of block offsets among natural numbers, a matrix is read here at natural-number coordinates
  (zero outside its extents); inside its extents that is the matrix's own entry.
-/
import Mathlib.Algebra.BigOperators.Fin
import Idealize.ShloMosaic.Lib.ValueIdx

noncomputable section

open scoped BigOperators

namespace Cert.Blocked

open Idealize.ShloMosaic Idealize.ShloMosaic.ValueIdx

/-- A matrix read at natural-number coordinates: its entry inside its extents, zero outside. -/
def at2 {R C : ℕ} (A : (⟨2, ![R, C]⟩ : Shape).Idx → EReal) (r c : ℕ) : EReal :=
  if h : r < R ∧ c < C then A (ix2 ⟨r, h.1⟩ ⟨c, h.2⟩) else 0

/-- Inside the extents it is the entry. -/
theorem at2_val {R C : ℕ} (A : (⟨2, ![R, C]⟩ : Shape).Idx → EReal) (r : Fin R) (c : Fin C) :
    at2 A r.val c.val = A (ix2 r c) := by
  unfold at2
  rw [dif_pos ⟨r.isLt, c.isLt⟩]

/-- The same from the two bounds. -/
theorem at2_of_lt {R C : ℕ} (A : (⟨2, ![R, C]⟩ : Shape).Idx → EReal) {r c : ℕ} (hr : r < R) (hc : c < C) :
    at2 A r c = A (ix2 ⟨r, hr⟩ ⟨c, hc⟩) := by
  unfold at2
  rw [dif_pos ⟨hr, hc⟩]

/-- A sum over the first n * b naturals is the sum over b consecutive blocks of n. -/
theorem sum_range_blocks (n : ℕ) (f : ℕ → EReal) :
    ∀ b : ℕ, ∑ κ ∈ Finset.range (n * b), f κ = ∑ kb ∈ Finset.range b, ∑ κ' ∈ Finset.range n, f (n * kb + κ')
  | 0 => by simp
  | b + 1 => by
    rw [Nat.mul_succ, Finset.sum_range_add, Finset.sum_range_succ, sum_range_blocks n f b]

/-- The partial product of contraction block kb (rows 1024 * kb .. 1024 * kb + 1023 of W) at (r, c). -/
def part (X : (⟨2, ![2048, 4096]⟩ : Shape).Idx → EReal) (W : (⟨2, ![4096, 4096]⟩ : Shape).Idx → EReal) (r c kb : ℕ) : EReal :=
  ∑ κ ∈ Finset.range 1024, at2 X r (1024 * kb + κ) * at2 W (1024 * kb + κ) c

/-- The whole contraction is the sum of the four blocks' partial products. -/
theorem full_eq_parts (X : (⟨2, ![2048, 4096]⟩ : Shape).Idx → EReal) (W : (⟨2, ![4096, 4096]⟩ : Shape).Idx → EReal)
    (r : Fin 2048) (c : Fin 4096) :
    ∑ κ : Fin 4096, X (ix2 r κ) * W (ix2 κ c) = ∑ kb ∈ Finset.range 4, part X W r.val c.val kb := by
  have h1 : ∑ κ : Fin 4096, X (ix2 r κ) * W (ix2 κ c) = ∑ κ : Fin 4096, at2 X r.val κ.val * at2 W κ.val c.val :=
    Finset.sum_congr rfl fun κ _ => by rw [at2_val, at2_val]
  rw [h1, Fin.sum_univ_eq_sum_range (fun κ => at2 X r.val κ * at2 W κ c.val) 4096]
  exact sum_range_blocks 1024 (fun κ => at2 X r.val κ * at2 W κ c.val) 4

/-- One block's product, over blocks of the two matrices: when the left block is X's rows from r0 and columns from
    1024 * kb, and the right block is W's rows from 1024 * kb and columns from c0, the block product at (p, q) is the
    partial product of block kb at (r0 + p, c0 + q). -/
theorem block_product (X : (⟨2, ![2048, 4096]⟩ : Shape).Idx → EReal) (W : (⟨2, ![4096, 4096]⟩ : Shape).Idx → EReal)
    (a b : (⟨2, ![1024, 1024]⟩ : Shape).Idx → EReal) (r0 c0 kb : ℕ)
    (ha : ∀ (p κ : Fin 1024), a (ix2 p κ) = at2 X (r0 + p.val) (1024 * kb + κ.val))
    (hb : ∀ (κ q : Fin 1024), b (ix2 κ q) = at2 W (1024 * kb + κ.val) (c0 + q.val)) (p q : Fin 1024) :
    ∑ κ : Fin 1024, a (ix2 p κ) * b (ix2 κ q) = part X W (r0 + p.val) (c0 + q.val) kb := by
  have h1 : ∑ κ : Fin 1024, a (ix2 p κ) * b (ix2 κ q)
      = ∑ κ : Fin 1024, at2 X (r0 + p.val) (1024 * kb + κ.val) * at2 W (1024 * kb + κ.val) (c0 + q.val) :=
    Finset.sum_congr rfl fun κ _ => by rw [ha, hb]
  rw [h1]
  exact Fin.sum_univ_eq_sum_range (fun κ => at2 X (r0 + p.val) (1024 * kb + κ) * at2 W (1024 * kb + κ) (c0 + q.val)) 1024

/-- What the accumulator of output block (n / 16, n / 4 % 4) holds at (p, q) after grid point n, the points running over
    the 2 x 4 x 4 grid with the contraction block n % 4 innermost: the partial products of contraction blocks 0 .. n % 4. -/
def accAfter (X : (⟨2, ![2048, 4096]⟩ : Shape).Idx → EReal) (W : (⟨2, ![4096, 4096]⟩ : Shape).Idx → EReal) (n p q : ℕ) : EReal :=
  ∑ kb ∈ Finset.range (n % 4 + 1), part X W (1024 * (n / 16) + p) (1024 * (n / 4 % 4) + q) kb

/-- At a point that starts an output block the accumulator is reset: zero plus the first partial product. -/
theorem accAfter_reset (X : (⟨2, ![2048, 4096]⟩ : Shape).Idx → EReal) (W : (⟨2, ![4096, 4096]⟩ : Shape).Idx → EReal)
    (n p q : ℕ) (h : n % 4 = 0) :
    0 + part X W (1024 * (n / 16) + p) (1024 * (n / 4 % 4) + q) (n % 4) = accAfter X W n p q := by
  unfold accAfter
  rw [h, zero_add, Finset.sum_range_one]

/-- At any other point the next partial product is added to what the point before left. -/
theorem accAfter_step (X : (⟨2, ![2048, 4096]⟩ : Shape).Idx → EReal) (W : (⟨2, ![4096, 4096]⟩ : Shape).Idx → EReal)
    (n p q : ℕ) (h : (n + 1) % 4 ≠ 0) :
    accAfter X W n p q + part X W (1024 * ((n + 1) / 16) + p) (1024 * ((n + 1) / 4 % 4) + q) ((n + 1) % 4)
      = accAfter X W (n + 1) p q := by
  unfold accAfter
  have e1 : (n + 1) / 16 = n / 16 := by omega
  have e2 : (n + 1) / 4 % 4 = n / 4 % 4 := by omega
  have e3 : (n + 1) % 4 = n % 4 + 1 := by omega
  rw [e1, e2, e3]
  exact (Finset.sum_range_succ _ _).symm

/-- At the last point of an output block all four partial products are in. -/
theorem accAfter_last (X : (⟨2, ![2048, 4096]⟩ : Shape).Idx → EReal) (W : (⟨2, ![4096, 4096]⟩ : Shape).Idx → EReal)
    (n p q : ℕ) (h : n % 4 = 3) :
    accAfter X W n p q = ∑ kb ∈ Finset.range 4, part X W (1024 * (n / 16) + p) (1024 * (n / 4 % 4) + q) kb := by
  unfold accAfter
  rw [h]

/-- The result both programs compute, as one function of the matrices and the biases. -/
def result (X : (⟨2, ![2048, 4096]⟩ : Shape).Idx → EReal) (W : (⟨2, ![4096, 4096]⟩ : Shape).Idx → EReal)
    (bias : (⟨1, ![4096]⟩ : Shape).Idx → EReal) : (⟨2, ![2048, 4096]⟩ : Shape).Idx → EReal :=
  fun j => (∑ kb ∈ Finset.range 4, part X W (j 0).val (j 1).val kb) + bias (ix1 (j 1))

end Cert.Blocked

end
-- ==== Proof.Arrays.lean ====
/-
  What the region finds in its arrays, and each window's block read at an entry.

  Before the region the host converts the inputs matrix to the narrower format (the identity over the extended reals),
  replaces each negative index by the index plus 4096, gathers the weights from the table of means at those indices
  and converts them likewise; the biases are untouched.  So the region's first array is the inputs matrix, its second
  the gathered weights, its third the biases.

  The grid point n of the 2 x 4 x 4 grid is (i, j, k) = (n / 16, n / 4 % 4, n % 4).  Its block of the first array starts at
  row 1024 * i and column 1024 * k, its block of the second at row 1024 * k and column 1024 * j, its block of the biases at
  column 1024 * j, and its block of the output at row 1024 * i and column 1024 * j.
-/
import proofs.«176932_j59923383714208_1_alg».proof.Proof.Gen.KernelIdeal.Frame
import proofs.«176932_j59923383714208_1_alg».proof.Proof.Blocked
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Arrays

open Cert.KernelIdeal Cert.KernelIdeal.Gen Idealize.ShloMosaic.ValueIdx

variable (m : (ℓ : Loc nD τ sig) → Buf (Elt Ideal) ℓ)

/-- The weights: the table of means gathered at the indices, a negative index first moved up by 4096. -/
def weights (idx : Vec Ideal S4096x4096 .i32) (mean : Vec Ideal S4096 .f32) : Vec Ideal S4096x4096 .f32 :=
  Host.gather gather_S4096_S4096x4096x1_S4096x4096_n_0_n_n_0_2_1 mean
    (broadcastInDim S4096x4096x1 ![0, 1] bcast_S4096x4096_S4096x4096x1_0_1
      (select (cmpi .slt idx (broadcastInDim S4096x4096 ![] bcast_S_S4096x4096 (constantI S_ 32 0#32)))
        (addi idx (broadcastInDim S4096x4096 ![] bcast_S_S4096x4096 (constantI S_ 32 4096#32))) idx))

/-- The region's three input arrays, each at its literal type. -/
abbrev xarr (c : Dev nD) : S2048x4096.Idx → EReal := V m c main_v7
abbrev warr (c : Dev nD) : S4096x4096.Idx → EReal := V m c main_v8
abbrev barr (c : Dev nD) : S4096.Idx → EReal := V m c main_arg3

/-- The first array is the inputs matrix. -/
theorem xarr_eq (c : Dev nD) : xarr m c = m ((c : Thread nD τ).loc main_arg0) := by
  show (V m c main_v7 : S2048x4096.Idx → EReal) = _
  dsimp only [V, hostOps0]
  after_results
  rfl

/-- The second is the gathered weights. -/
theorem warr_eq (c : Dev nD) :
    warr m c = weights (m ((c : Thread nD τ).loc main_arg1)) (m ((c : Thread nD τ).loc main_arg2)) := by
  show (V m c main_v8 : S4096x4096.Idx → EReal) = _
  dsimp only [V, hostOps0]
  after_results
  rfl

/-- The third is the biases. -/
theorem barr_eq (c : Dev nD) : barr m c = m ((c : Thread nD τ).loc main_arg3) := V_main_arg3 m c

/-- The blocks of grid point t, each at its literal type. -/
abbrev xblk (c : Dev nD) (t : Fin cfg0.N) : S1024x1024.Idx → EReal := iblk m c 0 t
abbrev wblk (c : Dev nD) (t : Fin cfg0.N) : S1024x1024.Idx → EReal := iblk m c 1 t
abbrev bblk (c : Dev nD) (t : Fin cfg0.N) : S1024.Idx → EReal := iblk m c 2 t

/-- Where each window's block sits, by the point's position in the grid: decided over the 32 points. -/
theorem x_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem w_index : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem b_index : ∀ t : Fin cfg0.N, win0_2.index t (0 : Fin 1) = t.val / 4 % 4 :=
  (by decide +kernel : ∀ t : Fin grid0.N, win0_2.index t (0 : Fin 1) = t.val / 4 % 4)
theorem o_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- The left block's entry (p, kappa) is the first array's entry (1024 * i + p, 1024 * k + kappa). -/
theorem xblk_at (c : Dev nD) (t : Fin cfg0.N) (p κ : Fin 1024) :
    xblk m c t (ix2 p κ) = Blocked.at2 (xarr m c) (1024 * (t.val / 16) + p.val) (1024 * (t.val % 4) + κ.val) := by
  obtain ⟨e0, e1⟩ := x_index t
  have ht : t.val < 32 := lt_of_lt_of_eq t.isLt N_0
  have hp := p.isLt
  have hκ := κ.isLt
  rw [Blocked.at2_of_lt (xarr m c) (show 1024 * (t.val / 16) + p.val < 2048 by omega) (show 1024 * (t.val % 4) + κ.val < 4096 by omega)]
  unfold xblk iblk
  rw [View.read_apply]
  refine congrArg (xarr m c) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * κ.val = 1024 * (t.val % 4) + κ.val; rw [e1]; omega

/-- The right block's entry (kappa, q) is the second array's entry (1024 * k + kappa, 1024 * j + q). -/
theorem wblk_at (c : Dev nD) (t : Fin cfg0.N) (κ q : Fin 1024) :
    wblk m c t (ix2 κ q) = Blocked.at2 (warr m c) (1024 * (t.val % 4) + κ.val) (1024 * (t.val / 4 % 4) + q.val) := by
  obtain ⟨e0, e1⟩ := w_index t
  have ht : t.val < 32 := lt_of_lt_of_eq t.isLt N_0
  have hq := q.isLt
  have hκ := κ.isLt
  rw [Blocked.at2_of_lt (warr m c) (show 1024 * (t.val % 4) + κ.val < 4096 by omega) (show 1024 * (t.val / 4 % 4) + q.val < 4096 by omega)]
  unfold wblk iblk
  rw [View.read_apply]
  refine congrArg (warr m c) (funext fun a => Fin.ext ?_)
  match a with
  | ⟨0, _⟩ => show win0_1.index t (0 : Fin 2) * 1024 + 1 * κ.val = 1024 * (t.val % 4) + κ.val; rw [e0]; omega
  | ⟨1, _⟩ => show win0_1.index t (1 : Fin 2) * 1024 + 1 * q.val = 1024 * (t.val / 4 % 4) + q.val; rw [e1]; omega

/-- The bias block's entry q is the bias of column 1024 * j + q. -/
theorem bblk_at (c : Dev nD) (t : Fin cfg0.N) (q : Fin 1024) (hq : 1024 * (t.val / 4 % 4) + q.val < 4096) :
    bblk m c t (ix1 q) = barr m c (ix1 ⟨1024 * (t.val / 4 % 4) + q.val, hq⟩) := by
  have e0 := b_index t
  unfold bblk iblk
  rw [View.read_apply]
  refine congrArg (barr m c) (funext fun a => Fin.ext ?_)
  match a with
  | ⟨0, _⟩ => show win0_2.index t (0 : Fin 1) * 1024 + 1 * q.val = 1024 * (t.val / 4 % 4) + q.val; rw [e0]; omega

end Cert.KernelIdeal.Arrays

end
-- ==== Proof.Accumulator.lean ====
/-
  The accumulator after every grid point.

  Within a run of four points (fixed output block (i, j), contraction block k = 0, 1, 2, 3) the accumulator is reset at
  k = 0 and gains block k's partial product at every point.  So after point n it holds, at (p, q), the sum of the partial
  products of contraction blocks 0 .. n % 4 at row 1024 * i + p and column 1024 * j + q: by induction on the point, the
  reset starting each run afresh and each later point adding to what the point before left.
-/
import proofs.«176932_j59923383714208_1_alg».proof.Proof.Pieces
import proofs.«176932_j59923383714208_1_alg».proof.Proof.Entry
import proofs.«176932_j59923383714208_1_alg».proof.Proof.Arrays

noncomputable section

open Idealize.ShloMosaic Idealize.ShloMosaic.TcCoe Idealize.SL.Sem

namespace Cert.KernelIdeal.Accumulator

open Cert.KernelIdeal Cert.KernelIdeal.Gen Cert.KernelIdeal.Arrays Idealize.ShloMosaic.ValueIdx

variable (m : (ℓ : Loc nD τ sig) → Buf (Elt Ideal) ℓ)

/-- The block product of point t's two blocks is contraction block t % 4's partial product at the output block's
    offsets. -/
theorem product_at (c : Dev nD) (t : Fin cfg0.N) (p q : Fin 1024) :
    ∑ κ : Fin 1024, xblk m c t (ix2 p κ) * wblk m c t (ix2 κ q)
      = Blocked.part (xarr m c) (warr m c) (1024 * (t.val / 16) + p.val) (1024 * (t.val / 4 % 4) + q.val) (t.val % 4) :=
  Blocked.block_product (xarr m c) (warr m c) (xblk m c t) (wblk m c t) (1024 * (t.val / 16)) (1024 * (t.val / 4 % 4)) (t.val % 4)
    (xblk_at m c t) (wblk_at m c t) p q

/-- A point that starts a run leaves the first partial product. -/
theorem first_point (c : Dev nD) (t : Fin cfg0.N) (h0 : t.val % 4 = 0) (p q : Fin 1024) :
    ((outsAt0 m c t.val t.isLt).2 : S1024x1024.Idx → EReal) (ix2 p q) = Blocked.accAfter (xarr m c) (warr m c) t.val p.val q.val := by
  have h1 : ¬t.val % 4 = 3 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (xblk m c t) (wblk m c t) (bblk m c t)) (ix2 p q)).trans ?_
  rw [Entry.accumulate_apply, Entry.reset_apply, product_at]
  exact Blocked.accAfter_reset _ _ t.val p.val q.val h0

/-- A later point adds its partial product to what the point before left. -/
theorem next_point (c : Dev nD) (n : ℕ) (hn : n + 1 < cfg0.N) (h0 : (n + 1) % 4 ≠ 0) (prev : S1024x1024.Idx → EReal)
    (hprev : ∀ p q : Fin 1024, prev (ix2 p q) = Blocked.accAfter (xarr m c) (warr m c) n p.val q.val) (p q : Fin 1024) :
    k0_pay2 (F := Ideal) prev (xblk m c ⟨n + 1, hn⟩) (wblk m c ⟨n + 1, hn⟩) (ix2 p q)
      = Blocked.accAfter (xarr m c) (warr m c) (n + 1) p.val q.val := by
  rw [Entry.accumulate_apply, hprev, product_at]
  exact Blocked.accAfter_step _ _ n p.val q.val h0

/-- After every point the accumulator holds the partial products so far of its output block. -/
theorem after_point (c : Dev nD) : ∀ (n : ℕ) (hn : n < cfg0.N) (p q : Fin 1024),
    ((outsAt0 m c n hn).2 : S1024x1024.Idx → EReal) (ix2 p q) = Blocked.accAfter (xarr m c) (warr m c) n p.val q.val := by
  intro n
  induction n with
  | zero => intro hn p q; exact first_point m c ⟨0, hn⟩ rfl p q
  | succ n ih =>
    intro hn p q
    by_cases h0 : (n + 1) % 4 = 0
    · exact first_point m c ⟨n + 1, hn⟩ h0 p q
    · have hprev := ih (Nat.lt_of_succ_lt hn)
      by_cases h1 : (n + 1) % 4 = 3
      · rw [outsAt0_C m c ⟨n + 1, hn⟩ h0 h1]
        dsimp only
        refine (congrFun (Pieces.acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1)
          (xblk m c ⟨n + 1, hn⟩) (wblk m c ⟨n + 1, hn⟩) (bblk m c ⟨n + 1, hn⟩) (outsAt0 m c n (Nat.lt_of_succ_lt hn)).2) (ix2 p q)).trans ?_
        exact next_point m c n hn h0 _ hprev p q
      · rw [outsAt0_B m c ⟨n + 1, hn⟩ h0 h1]
        dsimp only
        refine (congrFun (Pieces.acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h))
          (xblk m c ⟨n + 1, hn⟩) (wblk m c ⟨n + 1, hn⟩) (bblk m c ⟨n + 1, hn⟩) (outsAt0 m c n (Nat.lt_of_succ_lt hn)).2) (ix2 p q)).trans ?_
        exact next_point m c n hn h0 _ hprev p q

end Cert.KernelIdeal.Accumulator

end
-- ==== Proof.Output.lean ====
/-
  The output array after the run.

  The output block (i, j) is written back at the last point of its run (k = 3), where it holds, at (p, q), the full
  accumulation plus the bias of column 1024 * j + q: the common result function at row 1024 * i + p and column 1024 * j + q.
  Every entry (r, c) of the output lies in exactly such a block, that of the point 16 * (r / 1024) + 4 * (c / 1024) + 3, so
  the output array ends at the result function everywhere.
-/
import proofs.«176932_j59923383714208_1_alg».proof.Proof.Accumulator
import proofs.«176932_j59923383714208_1_alg».proof.Proof.Gen.KernelIdeal.Value

noncomputable section

open Idealize.ShloMosaic Idealize.ShloMosaic.TcCoe Idealize.SL.Sem
open Idealize.ShloMosaic.Pipeline (Dat)

namespace Cert.KernelIdeal.Output

open Cert.KernelIdeal Cert.KernelIdeal.Gen Cert.KernelIdeal.Arrays Idealize.ShloMosaic.ValueIdx

variable (m : (ℓ : Loc nD τ sig) → Buf (Elt Ideal) ℓ) (ρ : Dev nD → PrngReg)

/-- The output array's contents after the run: the common result function of the region's three arrays. -/
abbrev resultArr (c : Dev nD) : S2048x4096.Idx → EReal := Blocked.result (xarr m c) (warr m c) (barr m c)

/-- At the last point of a run the accumulation over what the point before left is the full accumulation. -/
theorem full_at_last (c : Dev nD) (t : Fin cfg0.N) (h0 : ¬t.val % 4 = 0) (h1 : t.val % 4 = 3) (p q : Fin 1024) :
    k0_pay2 (F := Ideal) (outsAt0 m c (t.val - 1) (Nat.lt_of_le_of_lt (Nat.sub_le _ _) t.isLt)).2 (xblk m c t) (wblk m c t) (ix2 p q)
      = Blocked.accAfter (xarr m c) (warr m c) t.val p.val q.val := by
  have h := Accumulator.after_point m c t.val t.isLt p q
  rw [outsAt0_C m c t h0 h1] at h
  dsimp only at h
  exact (congrFun (Pieces.acc_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (xblk m c t) (wblk m c t) (bblk m c t)
    (outsAt0 m c (t.val - 1) (Nat.lt_of_le_of_lt (Nat.sub_le _ _) t.isLt)).2) (ix2 p q)).symm.trans h

/-- What a flushing point writes back is its block of the result function. -/
theorem flushed_eq (c : Dev nD) (t : Fin cfg0.N) (hf : (cfg0.win 3).flush t = true) :
    (dats m 0 c).flushed 3 t = ((cfg0.win 3).blk t).view.read (Elt Ideal) (resultArr m c) := by
  have h1 : t.val % 4 = 3 := (flush0_3 t).mp hf
  have h0 : ¬t.val % 4 = 0 := by omega
  have ht : t.val < 32 := lt_of_lt_of_eq t.isLt N_0
  obtain ⟨e0, e1⟩ := o_index t
  rw [Value.flushed3_C m c t h0 h1]
  rw [Pieces.out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (xblk m c t) (wblk m c t) (bblk m c t)
    (outsAt0 m c (t.val - 1) (Nat.lt_of_le_of_lt (Nat.sub_le _ _) t.isLt)).2]
  funext j
  obtain ⟨p, q, rfl⟩ : ∃ (p q : Fin 1024), j = ix2 p q := ⟨j 0, j 1, eq_ix2 j⟩
  have hp := p.isLt
  have hq := q.isLt
  have hr : 1024 * (t.val / 16) + p.val < 2048 := by omega
  have hc : 1024 * (t.val / 4 % 4) + q.val < 4096 := by omega
  have hemb : ((cfg0.win 3).blk t).view.emb (ix2 p q) = ix2 (⟨1024 * (t.val / 16) + p.val, hr⟩ : Fin 2048) (⟨1024 * (t.val / 4 % 4) + q.val, hc⟩ : Fin 4096) := by
    funext a; apply Fin.ext
    match a with
    | ⟨0, _⟩ => show win0_3.index t (0 : Fin 2) * 1024 + 1 * p.val = 1024 * (t.val / 16) + p.val; rw [e0]; omega
    | ⟨1, _⟩ => show win0_3.index t (1 : Fin 2) * 1024 + 1 * q.val = 1024 * (t.val / 4 % 4) + q.val; rw [e1]; omega
  show k0_pay3 (F := Ideal) (bblk m c t) (k0_pay2 (F := Ideal) (outsAt0 m c (t.val - 1) (Nat.lt_of_le_of_lt (Nat.sub_le _ _) t.isLt)).2 (xblk m c t) (wblk m c t)) (ix2 p q)
    = resultArr m c (((cfg0.win 3).blk t).view.emb (ix2 p q))
  rw [hemb, Entry.epilogue_apply, full_at_last m c t h0 h1, Blocked.accAfter_last _ _ _ _ _ h1, bblk_at m c t q hc]
  rfl

/-- An entry is in a point's output block iff each coordinate is in the block's range. -/
theorem mem_blk (t : Fin cfg0.N) (i : S2048x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the output lies in the block of a flushing point. -/
theorem cover (i : S2048x4096.Idx) : ∃ t : Fin cfg0.N, (cfg0.win 3).flush t = true ∧ i ∈ ((cfg0.win 3).blk t).view.set := by
  have hi0 : (i 0).val < 2048 := (i 0).isLt
  have hi1 : (i 1).val < 4096 := (i 1).isLt
  have hN : cfg0.N = 32 := N_0
  let t : Fin cfg0.N := ⟨16 * ((i 0).val / 1024) + 4 * ((i 1).val / 1024) + 3, by rw [hN]; omega⟩
  have htv : t.val = 16 * ((i 0).val / 1024) + 4 * ((i 1).val / 1024) + 3 := rfl
  obtain ⟨e0, e1⟩ := o_index t
  refine ⟨t, (flush0_3 t).mpr (by rw [htv]; omega), ?_⟩
  rw [mem_blk]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 1024 ≤ (i 1).val ∧ (i 1).val < win0_3.index t (1 : Fin 2) * 1024 + 1024; rw [e1, htv]; omega

/-- So the output array ends at the result function. -/
theorem final (c : Dev nD) : (dats m 0 c).arrAt 3 cfg0.N = resultArr m c :=
  (dats m 0 c).arrAt_eq_of_cover 3 (resultArr m c) (flushed_eq m c) cover

/-- The kernel's run: the output at the result function of the region's arrays, the arguments unchanged. -/
theorem run : θ_run defs (onTc (τ := τ) (main (F := Ideal))) ⟨m, fun _ => 0, ρ⟩ fun r => ∀ c : Dev nD,
      r.2.mem ((c : Thread nD τ).loc main_v9) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Output

end
-- ==== Proof.Whole.lean ====
/-
  The reference is the blocked sum.

  The reference multiplies the whole inputs matrix by the whole matrix of gathered weights and adds the biases, each row
  broadcast: at (r, c) it is (sum over kappa < 4096 of X (r, kappa) * W (kappa, c)) + bias c.  Regrouped by contraction
  block that is the common result function.
-/
import proofs.«176932_j59923383714208_1_alg».proof.Proof.Gen.ReferenceIdeal.Read
import proofs.«176932_j59923383714208_1_alg».proof.Proof.Blocked

noncomputable section

open scoped BigOperators

namespace Cert.ReferenceIdeal.Whole

open Cert.ReferenceIdeal Cert.ReferenceIdeal.Read Idealize.ShloMosaic Idealize.ShloMosaic.ValueIdx

/-- The reference's result is the common result function of the inputs matrix, the gathered weights and the biases. -/
theorem result_eq (x0 : (⟨S2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v10 (F := Ideal) x0 x1 x2 x3 = Cert.Blocked.result x0 (val_main_v6 (F := Ideal) x1 x2) x3 := by
  funext j
  obtain ⟨r, cc, rfl⟩ : ∃ (r : Fin 2048) (cc : Fin 4096), j = ix2 r cc := ⟨j 0, j 1, eq_ix2 j⟩
  have hl : ∀ k : Fin 4096, lidx_main_v7 (ix2 r cc) k = ix2 r k := fun k => funext fun a => by
    match a with | ⟨0, _⟩ => rfl | ⟨1, _⟩ => rfl
  have hr : ∀ k : Fin 4096, ridx_main_v7 (ix2 r cc) k = ix2 k cc := fun k => funext fun a => by
    match a with | ⟨0, _⟩ => rfl | ⟨1, _⟩ => rfl
  have hb : idx_main_v8 (idx_main_v9 (ix2 r cc)) = ix1 cc := funext fun a => by
    match a with | ⟨0, _⟩ => rfl
  rw [val_main_v10_apply, val_main_v7_apply, val_main_v9_apply, val_main_v8_apply, hb]
  simp only [hl, hr]
  show (∑ k : Fin 4096, x0 (ix2 r k) * val_main_v6 (F := Ideal) x1 x2 (ix2 k cc)) + x3 (ix1 cc) = _
  rw [Cert.Blocked.full_eq_parts]
  rfl

end Cert.ReferenceIdeal.Whole

end
-- ==== Proof.lean ====
/-
  A matrix product with gathered weights and a bias, tiled over a grid, against the whole product.

  Both programs first build the weight matrix W (4096 x 4096) by gathering from the table of means at the given indices,
  a negative index first moved up by 4096; this is the same term on both sides and is never opened.  The reference then
  computes X * W + bias with one whole product: at (r, c), (sum over kappa < 4096 of X (r, kappa) * W (kappa, c)) + bias c.

  The kernel converts X and W to a narrower format, which over the extended reals is the identity, and runs a 2 x 4 x 4
  grid: output block (i, j) of 1024 x 1024 is accumulated over the four contraction blocks k in an accumulator that is
  reset at k = 0 and gains the product of X's block (i, k) with W's block (k, j) at each k; at k = 3 the bias row of column
  block j is added and the block is written back.  So the kernel's entry (1024 * i + p, 1024 * j + q) is
  (0 + P_0 + P_1 + P_2 + P_3) + bias, P_k the partial product over kappa in 1024 * k .. 1024 * k + 1023.

  The two agree because a sum over 4096 consecutive indices is the sum of its four blocks of 1024; addition of extended
  reals is commutative and associative, so no finiteness of the inputs is used.  The ideal pass rewrote nothing, so the
  kernel's idealization is its own text and there is nothing to preserve.

  The modules: Blocked (the common result function and the regrouping law), LibPlainDot (a plain matrix product read at
  an entry), Entry (the body's three stored values at an entry), Pieces (what each case of the body leaves),
  Arrays (what the region finds in its arrays; a block's entry in the array), Accumulator (the accumulator after every
  point, by induction), Output (the output array after the run), Whole (the reference is the same function).
-/
import proofs.«176932_j59923383714208_1_alg».proof.Defs
import proofs.«176932_j59923383714208_1_alg».proof.Proof.Gen.Kernel
import proofs.«176932_j59923383714208_1_alg».proof.Proof.Gen.Kernel.Skeleton
import proofs.«176932_j59923383714208_1_alg».proof.Proof.Gen.Kernel.Launch
import proofs.«176932_j59923383714208_1_alg».proof.Proof.Gen.Kernel.Points
import proofs.«176932_j59923383714208_1_alg».proof.Proof.Gen.Kernel.Frame
import proofs.«176932_j59923383714208_1_alg».proof.Proof.Gen.KernelIdeal
import proofs.«176932_j59923383714208_1_alg».proof.Proof.Gen.KernelIdeal.Skeleton
import proofs.«176932_j59923383714208_1_alg».proof.Proof.Gen.KernelIdeal.Launch
import proofs.«176932_j59923383714208_1_alg».proof.Proof.Gen.KernelIdeal.Points
import proofs.«176932_j59923383714208_1_alg».proof.Proof.Gen.KernelIdeal.Frame
import proofs.«176932_j59923383714208_1_alg».proof.Proof.Gen.ReferenceIdeal
import proofs.«176932_j59923383714208_1_alg».proof.Proof.Gen.Pre_finite_inputs
import proofs.«176932_j59923383714208_1_alg».proof.Proof.Gen.KernelIdeal.Value
import proofs.«176932_j59923383714208_1_alg».proof.Proof.Gen.ReferenceIdeal.Run
import proofs.«176932_j59923383714208_1_alg».proof.Proof.Gen.ReferenceIdeal.Read
import proofs.«176932_j59923383714208_1_alg».proof.Proof.Output
import proofs.«176932_j59923383714208_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The weights are one term in both programs. -/
theorem weights_eq (idx : (⟨Cert.ReferenceIdeal.S4096x4096, .i32⟩ : BufTy).Contents (Elt Ideal))
    (mean : (⟨Cert.ReferenceIdeal.S4096, .f32⟩ : BufTy).Contents (Elt Ideal)) :
    Cert.ReferenceIdeal.Read.val_main_v6 (F := Ideal) idx mean = Cert.KernelIdeal.Arrays.weights idx mean := rfl

/-- Over the extended reals, from arguments that agree, both programs end at the common result function of the inputs
    matrix, the gathered weights and the biases. -/
theorem algebraic : Cert.algebraic_KernelIdeal_ReferenceIdeal := by
  intro m ρ m' ρ' _ hagree
  refine ⟨fun c => Cert.KernelIdeal.Output.resultArr m c, Cert.KernelIdeal.Output.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Whole.result_eq, weights_eq,
    (hagree c).1, (hagree c).2.1, (hagree c).2.2.1, (hagree c).2.2.2]
  show _ = Cert.Blocked.result (Cert.KernelIdeal.Arrays.xarr m c) (Cert.KernelIdeal.Arrays.warr m c) (Cert.KernelIdeal.Arrays.barr m c)
  rw [Cert.KernelIdeal.Arrays.xarr_eq, Cert.KernelIdeal.Arrays.warr_eq, Cert.KernelIdeal.Arrays.barr_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
